-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.DotSpec.lean ====
/-
  The specification both programs meet, and the one law that joins them.

  Both programs compute a linear layer `out[i, j] = (∑ₖ x[i, k] · W[j, k]) + b[j]` over the extended reals, for
  `x : [8192, 4096]`, `W : [4096, 4096]`, `b : [4096]`. The reference takes the sum over `k` whole. The kernel cuts
  the contracted axis into 8 consecutive blocks of 512 and adds the blocks' partial sums one after the other into an
  accumulator that starts at zero. So the accumulator after block `k` is the row product over the first
  `512 · (k + 1)` columns, and after the last block it is the whole sum.

  To state "the first `N` columns" without carrying bounds through every step, a matrix is read here at NATURAL
  coordinates, with the value zero outside its extents (`entry`); the partial row product `dotUpTo` is then a sum over
  `Finset.range N`, and appending a block is `Finset.sum_range_add`. That law holds in every additive commutative
  monoid, so on the extended reals it needs no finiteness of the entries.
-/
import Idealize.ShloMosaic.PureOps.Ideal
import Idealize.ShloMosaic.Lib.ValueIdx
import Mathlib.Algebra.BigOperators.Group.Finset.Basic
import Mathlib.Algebra.BigOperators.Fin

noncomputable section

namespace Cert.DotSpec

open Idealize.ShloMosaic Idealize.ShloMosaic.ValueIdx Finset

/-- A rank-2 array read at natural coordinates: its entry inside the extents, zero outside. -/
def entry {R C : ℕ} (A : (⟨2, ![R, C]⟩ : Shape).Idx → EReal) (i x : ℕ) : EReal :=
  if h : i < R ∧ x < C then A (ix2 ⟨i, h.1⟩ ⟨x, h.2⟩) else 0

/-- Inside the extents `entry` is the array's entry. -/
theorem entry_of_lt {R C : ℕ} (A : (⟨2, ![R, C]⟩ : Shape).Idx → EReal) (i : Fin R) (x : Fin C) :
    entry A i.val x.val = A (ix2 i x) :=
  dif_pos ⟨i.isLt, x.isLt⟩

/-- Row `i` of `X` times row `j` of `W`, over the first `N` columns. -/
def dotUpTo {R R' C : ℕ} (X : (⟨2, ![R, C]⟩ : Shape).Idx → EReal) (W : (⟨2, ![R', C]⟩ : Shape).Idx → EReal)
    (i j N : ℕ) : EReal :=
  ∑ x ∈ range N, entry X i x * entry W j x

/-- The first `n · (k + 1)` columns are the first `n · k` columns and then the `n` columns of block `k`. -/
theorem dotUpTo_block_succ {R R' C : ℕ} (X : (⟨2, ![R, C]⟩ : Shape).Idx → EReal)
    (W : (⟨2, ![R', C]⟩ : Shape).Idx → EReal) (i j n k : ℕ) :
    dotUpTo X W i j (n * (k + 1))
      = dotUpTo X W i j (n * k) + ∑ r : Fin n, entry X i (n * k + r.val) * entry W j (n * k + r.val) := by
  unfold dotUpTo
  rw [Nat.mul_succ, Finset.sum_range_add, Finset.sum_range (fun r => entry X i (n * k + r) * entry W j (n * k + r))]

/-- Over no columns the product is zero. -/
theorem dotUpTo_zero {R R' C : ℕ} (X : (⟨2, ![R, C]⟩ : Shape).Idx → EReal)
    (W : (⟨2, ![R', C]⟩ : Shape).Idx → EReal) (i j : ℕ) : dotUpTo X W i j 0 = 0 :=
  Finset.sum_range_zero _

/-- Over all `C` columns, at rows inside the extents, it is the sum over the contracted axis. -/
theorem dotUpTo_full {R R' C : ℕ} (X : (⟨2, ![R, C]⟩ : Shape).Idx → EReal)
    (W : (⟨2, ![R', C]⟩ : Shape).Idx → EReal) (i : Fin R) (j : Fin R') :
    dotUpTo X W i.val j.val C = ∑ k : Fin C, X (ix2 i k) * W (ix2 j k) := by
  unfold dotUpTo
  rw [Finset.sum_range (fun x => entry X i.val x * entry W j.val x)]
  exact Finset.sum_congr rfl fun k _ => by rw [entry_of_lt, entry_of_lt]

/-- THE RESULT: `out[i, j] = (∑ₖ x[i, k] · W[j, k]) + b[j]`, as one function of the three argument arrays. -/
def linear (X : (⟨2, ![8192, 4096]⟩ : Shape).Idx → EReal) (W : (⟨2, ![4096, 4096]⟩ : Shape).Idx → EReal)
    (B : (⟨1, ![4096]⟩ : Shape).Idx → EReal) : (⟨2, ![8192, 4096]⟩ : Shape).Idx → EReal :=
  fun o => (∑ k : Fin 4096, X (ix2 (o 0) k) * W (ix2 (o 1) k)) + B (ix1 (o 1))

/-- The result at coordinates `(i, j)`, with the sum written as the row product over all 4096 columns. -/
theorem linear_apply (X : (⟨2, ![8192, 4096]⟩ : Shape).Idx → EReal) (W : (⟨2, ![4096, 4096]⟩ : Shape).Idx → EReal)
    (B : (⟨1, ![4096]⟩ : Shape).Idx → EReal) (i : Fin 8192) (j : Fin 4096) :
    linear X W B (ix2 i j) = dotUpTo X W i.val j.val 4096 + B (ix1 j) := by
  rw [dotUpTo_full]; rfl

end Cert.DotSpec

end
-- ==== Proof.RefLinear.lean ====
/-
  The reference computes `linear`.

  Its five operations are: transpose `W`; contract `x`'s axis 1 with the transposed `W`'s axis 0; lift `b` to a row
  `[1, 4096]`; repeat that row down the 8192 rows; add. Read at an output index `(i, j)`, one operation at a time: the
  product's left factor sits at `(i, k)` of `x`, its right factor at `(k, j)` of the transposed array, which is
  `(j, k)` of `W`; the twice-broadcast bias is `b[j]`. So the element is `(∑ₖ x[i,k] · W[j,k]) + b[j]`.
-/
import proofs.«125690_j43765716746849_1_alg».proof.Proof.Gen.ReferenceIdeal.Read
import proofs.«125690_j43765716746849_1_alg».proof.Proof.DotSpec

noncomputable section

namespace Cert.ReferenceIdeal.RefValue

open Cert.ReferenceIdeal Cert.ReferenceIdeal.Read Idealize.ShloMosaic Idealize.ShloMosaic.ValueIdx

/-- The product's left operand index at output `(i, j)` and contraction index `k` is `(i, k)`. -/
theorem lidx_eq (i : Fin 8192) (j k : Fin 4096) : lidx_main_v1 (ix2 i j) k = ix2 i k :=
  funext fun a => match a with | ⟨0, _⟩ => rfl | ⟨1, _⟩ => rfl

/-- Its right operand index `(k, j)`, read through the transpose, is `(j, k)` of `W`. -/
theorem ridx_eq (i : Fin 8192) (j k : Fin 4096) : idx_main_v0 (ridx_main_v1 (ix2 i j) k) = ix2 j k :=
  funext fun a => match a with | ⟨0, _⟩ => rfl | ⟨1, _⟩ => rfl

/-- The bias, broadcast to a row and then down the rows, is read at `j`. -/
theorem bidx_eq (i : Fin 8192) (j : Fin 4096) : idx_main_v2 (idx_main_v3 (ix2 i j)) = ix1 j :=
  funext fun a => match a with | ⟨0, _⟩ => rfl

/-- The reference's result, as a function of the three arguments, is `linear`. -/
theorem val_main_v4_eq_linear (X : (⟨S8192x4096, .f32⟩ : BufTy).Contents (Elt Ideal))
    (W : (⟨S4096x4096, .f32⟩ : BufTy).Contents (Elt Ideal)) (B : (⟨S4096, .f32⟩ : BufTy).Contents (Elt Ideal)) :
    val_main_v4 (F := Ideal) X W B = Cert.DotSpec.linear X W B := by
  funext o
  obtain ⟨i, j, rfl⟩ : ∃ (i : Fin 8192) (j : Fin 4096), o = ix2 i j := ⟨o 0, o 1, eq_ix2 o⟩
  rw [val_main_v4_apply, val_main_v1_apply, val_main_v3_apply, val_main_v2_apply, bidx_eq]
  simp only [val_main_v0_apply, lidx_eq, ridx_eq]
  rfl

end Cert.ReferenceIdeal.RefValue

end
-- ==== Proof.Pieces.lean ====
/-
  What each of the body's three control cases leaves behind, as the stored values of Skeleton.lean.

  The accumulator and the output block are each stored WHOLE (one store through the full `[2048, 1024]` rectangle at
  offset zero), and every load is of a whole buffer, so what a buffer holds after the body is the value of the LAST store
  into it, with each loaded buffer standing for its contents:

  * first K-step (reset, then update): the accumulator holds the update of the reset value, the update reading back
    the zero block just stored;
  * a middle K-step: the accumulator holds the update of what the step before left;
  * last K-step: the accumulator likewise, and the output block holds that updated accumulator plus the bias row.
-/
import proofs.«125690_j43765716746849_1_alg».proof.Proof.Gen.KernelIdeal.Frame
import Idealize.ShloMosaic.Lib.Pipeline.Value
import Idealize.ShloMosaic.Lib.Tactic

set_option maxRecDepth 16384

noncomputable section

namespace Cert.KernelIdeal.Piece

open Cert.KernelIdeal Cert.KernelIdeal.Gen Idealize.ShloMosaic Idealize.ShloMosaic.TcCoe Idealize.ShloMosaic.Tactic Idealize.SL.Sem

variable {F : FTy → Type} [FloatOps F]

/-- The offsets of every whole-buffer access: zero on both axes. -/
theorem hz : (![0, 0] : Fin 2 → ℕ) = fun _ => 0 := by
  funext a; match a with | ⟨0, _⟩ => rfl | ⟨1, _⟩ => rfl

/-- First K-step: the accumulator ends at the update of the reset value. -/
theorem sout_A (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x512) hz, View.ld_unit_zero (S := S1024x512) hz]

/-- A middle K-step: the accumulator ends at the update of what it held. -/
theorem sout_B (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1024x512 .f32) (x2 : Vec F S1x1024 .f32) (xs0 : Vec F S2048x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S2048x512) hz, View.ld_unit_zero (S := S1024x512) hz, View.ld_unit_zero (S := S2048x1024) hz]

/-- Last K-step: the accumulator ends at the update of what it held, -/
theorem sout_C (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1024x512 .f32) (x2 : Vec F S1x1024 .f32) (xs0 : Vec F S2048x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S2048x512) hz, View.ld_unit_zero (S := S1024x512) hz, View.ld_unit_zero (S := S2048x1024) hz]

/-- and the output block at that updated accumulator plus the bias row. -/
theorem out_C (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1024x512 .f32) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S2048x1024) _ hz, View.readAt_eq_ld, harg3.read_unread, harg4.read_unread,
    harg5.read_unread, harg7.read_unread, View.ld_unit_zero (S := S2048x512) hz, View.ld_unit_zero (S := S1024x512) hz,
    View.ld_unit_zero (S := S2048x1024) hz, View.ld_unit_zero (S := S1x1024) hz]

end Cert.KernelIdeal.Piece

end
-- ==== Proof.Payloads.lean ====
/-
  The kernel body's three stored values, read at an index of the `[2048, 1024]` accumulator block, over the extended
  reals.

  * The reset stores zero everywhere.
  * The update stores `acc[p, q] + ∑ᵣ xb[p, r] · wb[q, r]`, `r` over the 512 columns of the two input blocks: the
    narrowing of both blocks to bf16 is the identity on extended reals, the matrix unit contracts axis 1 of both
    operands into a zero accumulator, and the result is added to what the accumulator held.
  * The last step stores `acc[p, q] + bias[0, q]`: the bias block is one row, repeated down the 2048 rows.
-/
import proofs.«125690_j43765716746849_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## The operand indices of the matrix product -/

theorem lhs_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The matrix unit's result into a zero accumulator, at `(p, q)`: the sum over the 512 shared columns of the left
    block's row `p` times the right block's row `q`. -/
theorem matmul_apply (l : FVec Ideal S2048x512 .bf16) (r : FVec Ideal S1024x512 .bf16) (p : Fin 2048) (q : Fin 1024) :
    FloatOps.matmul dot_S2048x512_S1024x512_S2048x1024_1_1_0_0_n_n none l r (constant S2048x1024 .f32 0x00000000#32) (ix2 p q)
      = ∑ k : Fin 512, l (ix2 p k) * r (ix2 q k) := by
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun a => Fin.ext (by
    match a with
    | ⟨0, _⟩ => exact lhs_0 _ _
    | ⟨1, _⟩ => exact (lhs_1 _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun a => Fin.ext (by
    match a with
    | ⟨0, _⟩ => exact rhs_0 _ _
    | ⟨1, _⟩ => exact (rhs_1 _ _).trans hk)
  rw [el, er]

/-! ## The three stored values -/

/-- The reset value is zero at every index. -/
theorem pay1_apply (y : S2048x1024.Idx) : (k0_pay1 (F := Ideal)) y = 0 := by
  unfold k0_pay1
  simp only [shapeCast_self]
  exact Ideal.ofBits_zero_f32

/-- The update: what the accumulator held plus the two blocks' row product. -/
theorem pay2_apply (x0 : Vec Ideal S2048x512 .f32) (x1 : Vec Ideal S1024x512 .f32) (acc : Vec Ideal S2048x1024 .f32)
    (p : Fin 2048) (q : Fin 1024) :
    k0_pay2 x0 x1 acc (ix2 p q) = acc (ix2 p q) + ∑ k : Fin 512, x0 (ix2 p k) * x1 (ix2 q k) := by
  unfold k0_pay2
  simp only [shapeCast_self]
  refine (addf_apply _ _ _).trans ?_
  exact congrArg (acc (ix2 p q) + ·) (matmul_apply _ _ p q)

/-- The last step: the accumulator plus the bias row's entry of the column. -/
theorem pay3_apply (acc : Vec Ideal S2048x1024 .f32) (bv : Vec Ideal S1x1024 .f32) (p : Fin 2048) (q : Fin 1024) :
    k0_pay3 acc bv (ix2 p q) = acc (ix2 p q) + bv (ix2 (0 : Fin 1) q) := by
  unfold k0_pay3
  simp only [shapeCast_self]
  refine (addf_apply _ _ _).trans ?_
  refine congrArg (acc (ix2 p q) + ·) ?_
  exact broadcastTo_apply bv broadcasts_S1x1024_S2048x1024 (ix2 p q) (ix2 (0 : Fin 1) q) (fun a => match a with
    | ⟨0, _⟩ => by show (0 : ℕ) = if (1 : Nat) = 1 then 0 else p.val; rw [if_pos rfl]
    | ⟨1, _⟩ => by show q.val = if (1024 : Nat) = 1 then 0 else q.val; rw [if_neg (by decide)])

end Cert.KernelIdeal.Pay

end
-- ==== Proof.Blocks.lean ====
/-
  Where each window's block sits in its array.

  The grid is `4 × 4 × 8`, walked row-major, so point `t` has row-tile `t / 32`, column-tile `(t / 8) % 4` and K-step
  `t % 8`. At point `t`:
  * `x`'s block `[2048, 512]` is rows `2048·(t/32) …`, columns `512·(t%8) …` of `x`;
  * `W`'s block `[1024, 512]` is rows `1024·((t/8)%4) …`, columns `512·(t%8) …` of `W`;
  * the bias block `[1, 1024]` is columns `1024·((t/8)%4) …` of the bias viewed as one row, which the host made from
    `b` by a reshape that only adds a leading unit axis: entry `(0, n)` of the row is `b[n]`;
  * the output block `[2048, 1024]` is rows `2048·(t/32) …`, columns `1024·((t/8)%4) …` of the result.
  The block reads are stated at natural coordinates through `DotSpec.entry`, so that later arithmetic on them is
  arithmetic on naturals.
-/
import proofs.«125690_j43765716746849_1_alg».proof.Proof.Gen.KernelIdeal.Frame
import proofs.«125690_j43765716746849_1_alg».proof.Proof.DotSpec
import Idealize.ShloMosaic.Lib.Pipeline.Value
import Idealize.ShloMosaic.Lib.StableHlo.Run
import Idealize.ShloMosaic.Lib.Tactic

set_option maxRecDepth 16384

noncomputable section

namespace Cert.KernelIdeal.Blk

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx Cert.DotSpec

variable (m : (ℓ : Loc nD τ sig) → Buf (Elt Ideal) ℓ)

/-! ## The arrays and the blocks, at their literal types -/

abbrev xarr (c : Dev nD) : Vec Ideal S8192x4096 .f32 := m ((c : Thread nD τ).loc main_arg0)
abbrev warr (c : Dev nD) : Vec Ideal S4096x4096 .f32 := m ((c : Thread nD τ).loc main_arg1)
abbrev barr (c : Dev nD) : Vec Ideal S4096 .f32 := m ((c : Thread nD τ).loc main_arg2)

abbrev xblk (c : Dev nD) (t : Fin cfg0.N) : Vec Ideal S2048x512 .f32 := iblk m c 0 t
abbrev wblk (c : Dev nD) (t : Fin cfg0.N) : Vec Ideal S1024x512 .f32 := iblk m c 1 t
abbrev bblk (c : Dev nD) (t : Fin cfg0.N) : Vec Ideal S1x1024 .f32 := iblk m c 2 t

/-! ## The printed index maps, decided over the grid -/

theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-! ## The bias row the region finds -/

/-- The host's reshape leaves `b` viewed as one row. -/
theorem V_bias (c : Dev nD) :
    (V m c main_v0 : S1x4096.Idx → EReal) = shapeCast S1x4096 (barr m c) shapeCasts_S4096_S1x4096 := by
  dsimp only [Gen.V, Gen.hostOps0]
  after_results
  rfl

/-- Entry `(0, n)` of that row is `b[n]`. -/
theorem V_bias_apply (c : Dev nD) (z : Fin 1) (n : Fin 4096) : (V m c main_v0 : S1x4096.Idx → EReal) (ix2 z n) = barr m c (ix1 n) := by
  rw [V_bias]
  refine (shapeCast_addUnit_apply ![4096] (barr m c) shapeCasts_S4096_S1x4096 (ix2 z n)).trans ?_
  exact congrArg (barr m c) (funext fun a => match a with | ⟨0, _⟩ => rfl)

/-! ## The blocks read at an index -/

/-- `x`'s block at point `t`, at `(p, r)`. -/
theorem xblk_apply (c : Dev nD) (t : Fin cfg0.N) (p : Fin 2048) (r : Fin 512) (I K : ℕ)
    (hI : I = 2048 * (t.val / 32) + p.val) (hK : K = 512 * (t.val % 8) + r.val) :
    xblk m c t (ix2 p r) = entry (xarr m c) I K := by
  subst hI hK
  have hN : t.val < 128 := lt_of_lt_of_eq t.isLt (show cfg0.N = 128 from N_0)
  obtain ⟨e0, e1, -⟩ := idx_facts t
  have hb : 2048 * (t.val / 32) + p.val < 8192 ∧ 512 * (t.val % 8) + r.val < 4096 := by
    have := p.isLt; have := r.isLt; omega
  unfold entry
  rw [dif_pos hb]
  show V m c main_arg0 (((cfg0.win 0).blk t).view.emb (ix2 p r)) = m ((c : Thread nD τ).loc main_arg0) _
  rw [V_main_arg0]
  refine congrArg (m ((c : Thread nD τ).loc main_arg0)) (funext fun a => Fin.ext ?_)
  match a with
  | ⟨0, _⟩ => show win0_0.index t (0 : Fin 2) * 2048 + 1 * p.val = 2048 * (t.val / 32) + p.val; omega
  | ⟨1, _⟩ => show win0_0.index t (1 : Fin 2) * 512 + 1 * r.val = 512 * (t.val % 8) + r.val; omega

/-- `W`'s block at point `t`, at `(q, r)`. -/
theorem wblk_apply (c : Dev nD) (t : Fin cfg0.N) (q : Fin 1024) (r : Fin 512) (J K : ℕ)
    (hJ : J = 1024 * (t.val / 8 % 4) + q.val) (hK : K = 512 * (t.val % 8) + r.val) :
    wblk m c t (ix2 q r) = entry (warr m c) J K := by
  subst hJ hK
  have hN : t.val < 128 := lt_of_lt_of_eq t.isLt (show cfg0.N = 128 from N_0)
  obtain ⟨-, -, e0, e1, -⟩ := idx_facts t
  have hb : 1024 * (t.val / 8 % 4) + q.val < 4096 ∧ 512 * (t.val % 8) + r.val < 4096 := by
    have := q.isLt; have := r.isLt; omega
  unfold entry
  rw [dif_pos hb]
  show V m c main_arg1 (((cfg0.win 1).blk t).view.emb (ix2 q r)) = m ((c : Thread nD τ).loc main_arg1) _
  rw [V_main_arg1]
  refine congrArg (m ((c : Thread nD τ).loc main_arg1)) (funext fun a => Fin.ext ?_)
  match a with
  | ⟨0, _⟩ => show win0_1.index t (0 : Fin 2) * 1024 + 1 * q.val = 1024 * (t.val / 8 % 4) + q.val; omega
  | ⟨1, _⟩ => show win0_1.index t (1 : Fin 2) * 512 + 1 * r.val = 512 * (t.val % 8) + r.val; omega

/-- The bias block at point `t`, at `(0, q)`: `b` at column `1024·((t/8)%4) + q`. -/
theorem bblk_apply (c : Dev nD) (t : Fin cfg0.N) (q : Fin 1024) (n : Fin 4096)
    (hn : n.val = 1024 * (t.val / 8 % 4) + q.val) :
    bblk m c t (ix2 (0 : Fin 1) q) = barr m c (ix1 n) := by
  obtain ⟨-, -, -, -, e0, e1, -⟩ := idx_facts t
  rw [← V_bias_apply m c (0 : Fin 1) n]
  show V m c main_v0 (((cfg0.win 2).blk t).view.emb (ix2 (0 : Fin 1) q)) = V m c main_v0 _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

end Cert.KernelIdeal.Blk

end
-- ==== Proof.Accumulator.lean ====
/-
  What the accumulator holds after each grid point.

  Point `t` is K-step `t % 8` of the output tile with row-tile `t / 32` and column-tile `(t / 8) % 4`. After it the
  accumulator at `(p, q)` is the row product of `x`'s row `2048·(t/32) + p` and `W`'s row `1024·((t/8)%4) + q` over the
  first `512·(t%8 + 1)` columns. By induction on the point: at a first K-step the body resets the accumulator to zero
  and adds block 0's product, `0 + s₀ = s₀`; at any other K-step it adds block `k`'s product to what the point before
  left, and the point before belongs to the same tile at K-step `k − 1`, so the partial product grows by one block
  (`DotSpec.dotUpTo_block_succ`). At the last K-step the output block is that accumulator, now the whole row product,
  plus the bias.
-/
import proofs.«125690_j43765716746849_1_alg».proof.Proof.Pieces
import proofs.«125690_j43765716746849_1_alg».proof.Proof.Payloads
import proofs.«125690_j43765716746849_1_alg».proof.Proof.Blocks

set_option maxRecDepth 16384

noncomputable section

namespace Cert.KernelIdeal.Acc

open Cert.KernelIdeal Cert.KernelIdeal.Gen Idealize.ShloMosaic Idealize.ShloMosaic.TcCoe
open Idealize.SL.Sem Idealize.ShloMosaic.ValueIdx Cert.DotSpec Cert.KernelIdeal.Blk

variable (m : (ℓ : Loc nD τ sig) → Buf (Elt Ideal) ℓ)

/-- The accumulator after point `t`, at its literal type. -/
abbrev accAfter (c : Dev nD) (t : Fin cfg0.N) : Vec Ideal S2048x1024 .f32 := (outsAt0 m c t.val t.isLt).2

/-- One K-step's addend: block `t % 8` of the row product, from the two input blocks at point `t`. -/
theorem block_term (c : Dev nD) (t : Fin cfg0.N) (p : Fin 2048) (q : Fin 1024) (I J k : ℕ)
    (hI : I = 2048 * (t.val / 32) + p.val) (hJ : J = 1024 * (t.val / 8 % 4) + q.val) (hk : k = t.val % 8) :
    ∑ r : Fin 512, xblk m c t (ix2 p r) * wblk m c t (ix2 q r)
      = ∑ r : Fin 512, entry (xarr m c) I (512 * k + r.val) * entry (warr m c) J (512 * k + r.val) :=
  Finset.sum_congr rfl fun r _ => by
    rw [xblk_apply m c t p r I (512 * k + r.val) hI (by rw [hk]), wblk_apply m c t q r J (512 * k + r.val) hJ (by rw [hk])]

/-- THE INVARIANT: after point `t` the accumulator holds the row product over the first `512·(t%8 + 1)` columns. -/
theorem accAfter_apply (c : Dev nD) : ∀ (n : ℕ) (t : Fin cfg0.N), t.val = n → ∀ (p : Fin 2048) (q : Fin 1024),
    accAfter m c t (ix2 p q)
      = dotUpTo (xarr m c) (warr m c) (2048 * (n / 32) + p.val) (1024 * (n / 8 % 4) + q.val) (512 * (n % 8 + 1)) := by
  intro n
  induction n with
  | zero =>
    intro t ht p q
    have h0 : t.val % 8 = 0 := by rw [ht]
    have h1 : ¬t.val % 8 = 7 := by rw [ht]; decide
    show (outsAt0 m c t.val t.isLt).2 (ix2 p q) = _
    rw [outsAt0_A m c t h0 h1]
    dsimp only
    refine (congrFun (Piece.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
    refine (Pay.pay2_apply (xblk m c t) (wblk m c t) (k0_pay1 (F := Ideal)) p q).trans ?_
    rw [Pay.pay1_apply, zero_add, block_term m c t p q (2048 * (0 / 32) + p.val) (1024 * (0 / 8 % 4) + q.val) 0 (by rw [ht]) (by rw [ht]) (by rw [ht])]
    rw [show 512 * (0 % 8 + 1) = 512 * (0 + 1) from rfl, dotUpTo_block_succ, dotUpTo_zero, zero_add]
  | succ n ih =>
    intro t ht p q
    have hN : t.val < 128 := lt_of_lt_of_eq t.isLt (show cfg0.N = 128 from N_0)
    show (outsAt0 m c t.val t.isLt).2 (ix2 p q) = _
    by_cases h0 : t.val % 8 = 0
    · -- a first K-step: reset, then block 0
      have h1 : ¬t.val % 8 = 7 := by omega
      rw [outsAt0_A m c t h0 h1]
      dsimp only
      refine (congrFun (Piece.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
      refine (Pay.pay2_apply (xblk m c t) (wblk m c t) (k0_pay1 (F := Ideal)) p q).trans ?_
      rw [Pay.pay1_apply, zero_add, block_term m c t p q (2048 * ((n + 1) / 32) + p.val) (1024 * ((n + 1) / 8 % 4) + q.val) 0 (by rw [ht]) (by rw [ht]) (by rw [h0])]
      rw [show (n + 1) % 8 = 0 from ht ▸ h0, show 512 * (0 + 1) = 512 * (0 + 1) from rfl, dotUpTo_block_succ, dotUpTo_zero, zero_add]
    · -- a later K-step: the point before is the same tile's K-step before
      have hpred : t.val - 1 < cfg0.N := Nat.lt_of_le_of_lt (Nat.sub_le _ _) t.isLt
      have hprev := ih ⟨t.val - 1, hpred⟩ (by show t.val - 1 = n; omega) p q
      have e32 : (n + 1) / 32 = n / 32 := by omega
      have e8 : (n + 1) / 8 = n / 8 := by omega
      have ek : (n + 1) % 8 = n % 8 + 1 := by omega
      have step : ∀ acc : Vec Ideal S2048x1024 .f32, acc = accAfter m c ⟨t.val - 1, hpred⟩ →
          k0_pay2 (xblk m c t) (wblk m c t) acc (ix2 p q)
            = dotUpTo (xarr m c) (warr m c) (2048 * ((n + 1) / 32) + p.val) (1024 * ((n + 1) / 8 % 4) + q.val) (512 * ((n + 1) % 8 + 1)) := by
        intro acc hacc
        refine (Pay.pay2_apply (xblk m c t) (wblk m c t) acc p q).trans ?_
        rw [hacc, hprev, block_term m c t p q (2048 * ((n + 1) / 32) + p.val) (1024 * ((n + 1) / 8 % 4) + q.val) (n % 8 + 1) (by rw [ht]) (by rw [ht]) (by rw [ht, ek]),
          e32, e8, ek, dotUpTo_block_succ (xarr m c) (warr m c) _ _ 512 (n % 8 + 1)]
      by_cases h1 : t.val % 8 = 7
      · rw [outsAt0_C m c t h0 h1]
        dsimp only
        refine (congrFun (Piece.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) hpred).2) (ix2 p q)).trans ?_
        exact step _ rfl
      · rw [outsAt0_B m c t h0 h1]
        dsimp only
        refine (congrFun (Piece.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) hpred).2) (ix2 p q)).trans ?_
        exact step _ rfl

end Cert.KernelIdeal.Acc

end
-- ==== Proof.Result.lean ====
/-
  The kernel's result array is `linear` of its three arguments.

  The output window is written back only at the last K-step of each tile (`t % 8 = 7`). There the output block at
  `(p, q)` is the accumulator, which after eight blocks of 512 is the row product over all 4096 columns, plus the bias
  entry of the column: block `t` of `linear`. Every index `(i, j)` of the result lies in the block written back at the
  last K-step of tile `(i / 2048, j / 1024)`, so the sixteen written-back blocks cover the array and it ends holding
  `linear` everywhere.
-/
import proofs.«125690_j43765716746849_1_alg».proof.Proof.Gen.KernelIdeal.Value
import proofs.«125690_j43765716746849_1_alg».proof.Proof.Accumulator

set_option maxRecDepth 16384

noncomputable section

namespace Cert.KernelIdeal.Result

open Cert.KernelIdeal Cert.KernelIdeal.Gen Idealize.ShloMosaic Idealize.ShloMosaic.TcCoe
open Idealize.SL.Sem Idealize.ShloMosaic.ValueIdx Cert.DotSpec Cert.KernelIdeal.Blk Cert.KernelIdeal.Acc
open Idealize.ShloMosaic.Pipeline (Dat)

variable (m : (ℓ : Loc nD τ sig) → Buf (Elt Ideal) ℓ) (ρ : Dev nD → PrngReg)

/-- The specification at this run's arguments. -/
abbrev result (c : Dev nD) : Vec Ideal S8192x4096 .f32 := linear (xarr m c) (warr m c) (barr m c)

/-- The output block a last K-step stores, at `(p, q)`: `linear` at the block's place in the array. -/
theorem out_last_apply (c : Dev nD) (t : Fin cfg0.N) (h0 : ¬t.val % 8 = 0) (h1 : t.val % 8 = 7)
    (p : Fin 2048) (q : Fin 1024) (i : Fin 8192) (j : Fin 4096)
    (hi : i.val = 2048 * (t.val / 32) + p.val) (hj : j.val = 1024 * (t.val / 8 % 4) + q.val) :
    (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 : Vec Ideal S2048x1024 .f32) (ix2 p q)
      = result m c (ix2 i j) := by
  -- the accumulator after this point is the update the output block is computed from
  have hacc : accAfter m c t = k0_pay2 (xblk m c t) (wblk m c t) (outsAt0 m c (t.val - 1) (Nat.lt_of_le_of_lt (Nat.sub_le _ _) t.isLt)).2 := by
    show (outsAt0 m c t.val t.isLt).2 = _
    rw [outsAt0_C m c t h0 h1]
    dsimp only
    exact Piece.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  refine (congrFun (Piece.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  rw [← hacc]
  refine (Pay.pay3_apply (accAfter m c t) (bblk m c t) p q).trans ?_
  rw [accAfter_apply m c t.val t rfl p q, bblk_apply m c t q j hj]
  show _ = linear (xarr m c) (warr m c) (barr m c) (ix2 i j)
  rw [linear_apply, hi, hj, h1]

/-- WHAT A FLUSHING POINT WRITES BACK is its block of `linear`. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  have hN : t.val < 128 := lt_of_lt_of_eq t.isLt (show cfg0.N = 128 from N_0)
  obtain ⟨-, -, -, -, -, -, e0, e1⟩ := idx_facts t
  rw [Value.flushed3_C m c t h0 h1]
  funext y
  obtain ⟨p, q, rfl⟩ : ∃ (p : Fin 2048) (q : Fin 1024), y = ix2 p q := ⟨y 0, y 1, eq_ix2 y⟩
  have hp := p.isLt
  have hq := q.isLt
  show (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 : Vec Ideal S2048x1024 .f32) (ix2 p q)
    = result m c (((cfg0.win 3).blk t).view.emb (ix2 p q))
  rw [out_last_apply m c t h0 h1 p q ⟨2048 * (t.val / 32) + p.val, by omega⟩ ⟨1024 * (t.val / 8 % 4) + q.val, by omega⟩ rfl rfl]
  refine congrArg (result m c) (funext fun a => Fin.ext ?_)
  match a with
  | ⟨0, _⟩ => show 2048 * (t.val / 32) + p.val = win0_3.index t (0 : Fin 2) * 2048 + 1 * p.val; omega
  | ⟨1, _⟩ => show 1024 * (t.val / 8 % 4) + q.val = win0_3.index t (1 : Fin 2) * 1024 + 1 * q.val; omega

/-- An index of the result is in point `t`'s output block iff each coordinate is in the block's range on its axis. -/
theorem mem_blk (t : Fin cfg0.N) (i : S8192x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1).slice (win0_3.rect t)).set ↔ _
  rw [View.set_slice_whole, Rect.mem_set_unit]
  exact Iff.rfl

/-- Every index lies in the block written back at the last K-step of its tile. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have hlt : 32 * ((i 0).val / 2048) + 8 * ((i 1).val / 1024) + 7 < cfg0.N := by rw [hN]; omega
  refine ⟨⟨32 * ((i 0).val / 2048) + 8 * ((i 1).val / 1024) + 7, hlt⟩, ?_, ?_⟩
  · exact (flush0_3 _).mpr (by show (32 * ((i 0).val / 2048) + 8 * ((i 1).val / 1024) + 7) % 8 = 7; omega)
  · obtain ⟨-, -, -, -, -, -, e0, e1⟩ := idx_facts ⟨32 * ((i 0).val / 2048) + 8 * ((i 1).val / 1024) + 7, hlt⟩
    have e0' : win0_3.index ⟨32 * ((i 0).val / 2048) + 8 * ((i 1).val / 1024) + 7, hlt⟩ (0 : Fin 2) = (i 0).val / 2048 := by
      rw [e0]; show (32 * ((i 0).val / 2048) + 8 * ((i 1).val / 1024) + 7) / 32 = _; omega
    have e1' : win0_3.index ⟨32 * ((i 0).val / 2048) + 8 * ((i 1).val / 1024) + 7, hlt⟩ (1 : Fin 2) = (i 1).val / 1024 := by
      rw [e1]; show (32 * ((i 0).val / 2048) + 8 * ((i 1).val / 1024) + 7) / 8 % 4 = _; omega
    rw [mem_blk]
    intro a
    match a with
    | ⟨0, _⟩ =>
      show win0_3.index _ (0 : Fin 2) * 2048 ≤ (i 0).val ∧ (i 0).val < win0_3.index _ (0 : Fin 2) * 2048 + 2048
      rw [e0']; omega
    | ⟨1, _⟩ =>
      show win0_3.index _ (1 : Fin 2) * 1024 ≤ (i 1).val ∧ (i 1).val < win0_3.index _ (1 : Fin 2) * 1024 + 1024
      rw [e1']; omega

/-- THE RESULT ARRAY after the run is `linear` of the arguments. -/
theorem final (c : Dev nD) : (dats m 0 c).arrAt 3 cfg0.N = result m c :=
  (dats m 0 c).arrAt_eq_of_cover 3 (result m c) (fun t hf => flushed_eq m c t hf) cover

/-- The kernel's run, with its result named. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  A linear layer `out = x · Wᵀ + b`, `x : [8192, 4096]`, `W : [4096, 4096]`, `b : [4096]`: a kernel tiled
  `4 × 4 × 8` over (rows, columns, contracted axis) against the whole product on the host.

  At each grid point the kernel multiplies a `[2048, 512]` block of `x` by a `[1024, 512]` block of `W` (both narrowed
  to bf16, which is the identity on extended reals) along their shared 512 columns and adds the result into a
  `[2048, 1024]` accumulator that it zeroes at the first of a tile's eight K-steps; at the last K-step it writes the
  accumulator plus the bias row out as the tile's output block. The reference transposes `W`, contracts all 4096
  columns at once and adds the bias broadcast down the rows.

  Over the extended reals both are `out[i, j] = (∑ₖ x[i, k] · W[j, k]) + b[j]` (`DotSpec.linear`): the kernel's
  accumulator after K-step `k` is the row product over the first `512·(k + 1)` columns (`Acc.accAfter_apply`), which
  after the eighth block is the sum over all columns; the only laws used are `0 + a = a` and the splitting of a finite
  sum into consecutive blocks, both true in every additive commutative monoid, so the precondition (finite inputs) is
  not opened. The idealization rewrote nothing, so there is nothing to preserve.

  The modules: DotSpec (the specification and the block law), RefLinear (the reference is `linear`), Payloads (the
  body's three stored values at an index), Pieces (what each control case leaves in the accumulator and the output
  block), Blocks (where each window's block sits in its array), Accumulator (the invariant, by induction over the grid
  points), Result (the written-back blocks cover the result array).
-/
import proofs.«125690_j43765716746849_1_alg».proof.Defs
import proofs.«125690_j43765716746849_1_alg».proof.Proof.Gen.Kernel
import proofs.«125690_j43765716746849_1_alg».proof.Proof.Gen.Kernel.Skeleton
import proofs.«125690_j43765716746849_1_alg».proof.Proof.Gen.Kernel.Launch
import proofs.«125690_j43765716746849_1_alg».proof.Proof.Gen.Kernel.Points
import proofs.«125690_j43765716746849_1_alg».proof.Proof.Gen.Kernel.Frame
import proofs.«125690_j43765716746849_1_alg».proof.Proof.Gen.KernelIdeal
import proofs.«125690_j43765716746849_1_alg».proof.Proof.Gen.KernelIdeal.Skeleton
import proofs.«125690_j43765716746849_1_alg».proof.Proof.Gen.KernelIdeal.Launch
import proofs.«125690_j43765716746849_1_alg».proof.Proof.Gen.KernelIdeal.Points
import proofs.«125690_j43765716746849_1_alg».proof.Proof.Gen.KernelIdeal.Frame
import proofs.«125690_j43765716746849_1_alg».proof.Proof.Gen.ReferenceIdeal
import proofs.«125690_j43765716746849_1_alg».proof.Proof.Gen.Pre_finite_inputs
import proofs.«125690_j43765716746849_1_alg».proof.Proof.Gen.KernelIdeal.Value
import proofs.«125690_j43765716746849_1_alg».proof.Proof.Gen.ReferenceIdeal.Run
import proofs.«125690_j43765716746849_1_alg».proof.Proof.Gen.ReferenceIdeal.Read
import proofs.«125690_j43765716746849_1_alg».proof.Proof.RefLinear
import proofs.«125690_j43765716746849_1_alg».proof.Proof.Result
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is five host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `linear` of arguments that agree: the kernel's result array by `Result.run`, the
    reference's by its run read one operation at a time (`RefValue.val_main_v4_eq_linear`). -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.val_main_v4_eq_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
